-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S1600000 32) (main_arg2 : IVec S1600000 32) (main_arg3 : FVec F S128x64 .f32) (main_arg4 : FVec F S64 .f32) (main_arg5 : FVec F S64x64 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_v13 main_v16
-- ==== Kernel.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 58
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S100000, .i32⟩
  | .hbm, ⟨8, _⟩ => ⟨S1700000, .i32⟩
  | .hbm, ⟨9, _⟩ => ⟨S1700000, .i32⟩
  | .hbm, ⟨10, _⟩ => ⟨S_, .f32⟩
  | .hbm, ⟨11, _⟩ => ⟨S1700000, .f32⟩
  | .hbm, ⟨12, _⟩ => ⟨S_, .f32⟩
  | .hbm, ⟨13, _⟩ => ⟨S100000, .f32⟩
  | .hbm, ⟨14, _⟩ => ⟨S1700000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S100000x1, .f32⟩
  | .hbm, ⟨23, _⟩ => ⟨S100000x64, .f32⟩
  | .hbm, ⟨24, _⟩ => ⟨S_, .i32⟩
  | .hbm, ⟨25, _⟩ => ⟨S1700000, .i32⟩
  | .hbm, ⟨26, _⟩ => ⟨S1700000, .i1⟩
  | .hbm, ⟨27, _⟩ => ⟨S_, .i32⟩
  | .hbm, ⟨28, _⟩ => ⟨S1700000, .i32⟩
  | .hbm, ⟨29, _⟩ => ⟨S1700000, .i32⟩
  | .hbm, ⟨30, _⟩ => ⟨S1700000, .i32⟩
  | .hbm, ⟨31, _⟩ => ⟨S1700000x1, .i32⟩
  | .hbm, ⟨32, _⟩ => ⟨S1700000x64, .f32⟩
  | .hbm, ⟨33, _⟩ => ⟨S_, .f32⟩
  | .hbm, ⟨34, _⟩ => ⟨S100000x64, .f32⟩
  | .hbm, ⟨35, _⟩ => ⟨S1700000x1, .i32⟩
  | .hbm, ⟨36, _⟩ => ⟨S100000x64, .f32⟩
  | .hbm, ⟨37, _⟩ => ⟨S100000x1, .f32⟩
  | .hbm, ⟨38, _⟩ => ⟨S1x64, .f32⟩
  | .hbm, ⟨39, _⟩ => ⟨S100000x64, .f32⟩
  | .hbm, ⟨40, _⟩ => ⟨S100000x1, .f32⟩
  | .hbm, ⟨41, _⟩ => ⟨S100000x64, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000x64, .f32⟩
  | .hbm, ⟨51, _⟩ => ⟨S_, .f32⟩
  | .hbm, ⟨52, _⟩ => ⟨S100000x64, .f32⟩
  | .hbm, ⟨53, _⟩ => ⟨S1700000x1, .i32⟩
  | .hbm, ⟨54, _⟩ => ⟨S100000x64, .f32⟩
  | .hbm, ⟨55, _⟩ => ⟨S100000x1, .f32⟩
  | .hbm, ⟨56, _⟩ => ⟨S1x64, .f32⟩
  | .hbm, ⟨57, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S5000x1, .f32⟩
  | .local _ .vmem, ⟨18, _⟩ => ⟨S5000x1, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_v29 : Ref sig .tc := ⟨.hbm, 43, rfl⟩
abbrev main_v30 : Ref sig .tc := ⟨.hbm, 44, rfl⟩
abbrev main_c_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  scatter_S100000_S1700000x1_S1700000_n_0_0_1_wf : ScatterDims.WF S100000 S1700000x1 S1700000 [] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v26) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v27) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v28) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v38) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v39) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v40) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v41) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S100000x1 : Shape := ⟨2, ![100000, 1]⟩
abbrev S1700000x64 : Shape := ⟨2, ![1700000, 64]⟩
abbrev S1x64 : Shape := ⟨2, ![1, 64]⟩

abbrev nBuf : Space → Nat
  | .hbm => 71
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S100000, .i32⟩
  | .hbm, ⟨8, _⟩ => ⟨S1700000, .i32⟩
  | .hbm, ⟨9, _⟩ => ⟨S1700000, .i32⟩
  | .hbm, ⟨10, _⟩ => ⟨S_, .f32⟩
  | .hbm, ⟨11, _⟩ => ⟨S1700000, .f32⟩
  | .hbm, ⟨12, _⟩ => ⟨S_, .f32⟩
  | .hbm, ⟨13, _⟩ => ⟨S100000, .f32⟩
  | .hbm, ⟨14, _⟩ => ⟨S1700000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S100000x64, .f32⟩
  | .hbm, ⟨23, _⟩ => ⟨S100000x1, .f32⟩
  | .hbm, ⟨24, _⟩ => ⟨S100000x64, .f32⟩
  | .hbm, ⟨25, _⟩ => ⟨S100000x64, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000x64, .f32⟩
  | .hbm, ⟨35, _⟩ => ⟨S_, .f32⟩
  | .hbm, ⟨36, _⟩ => ⟨S100000x64, .f32⟩
  | .hbm, ⟨37, _⟩ => ⟨S1700000x1, .i32⟩
  | .hbm, ⟨38, _⟩ => ⟨S100000x64, .f32⟩
  | .hbm, ⟨39, _⟩ => ⟨S100000x1, .f32⟩
  | .hbm, ⟨40, _⟩ => ⟨S100000x64, .f32⟩
  | .hbm, ⟨41, _⟩ => ⟨S100000x64, .f32⟩
  | .hbm, ⟨42, _⟩ => ⟨S1x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S100000x64, .f32⟩
  | .hbm, ⟨48, _⟩ => ⟨S100000x64, .f32⟩
  | .hbm, ⟨49, _⟩ => ⟨S100000x1, .f32⟩
  | .hbm, ⟨50, _⟩ => ⟨S100000x64, .f32⟩
  | .hbm, ⟨51, _⟩ => ⟨S100000x64, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x64, .f32⟩
  | .hbm, ⟨61, _⟩ => ⟨S_, .f32⟩
  | .hbm, ⟨62, _⟩ => ⟨S100000x64, .f32⟩
  | .hbm, ⟨63, _⟩ => ⟨S1700000x1, .i32⟩
  | .hbm, ⟨64, _⟩ => ⟨S100000x64, .f32⟩
  | .hbm, ⟨65, _⟩ => ⟨S100000x1, .f32⟩
  | .hbm, ⟨66, _⟩ => ⟨S100000x64, .f32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_call0_cst : Ref sig .tc := ⟨.hbm, 45, rfl⟩
abbrev main_call0_v0 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_4 : Ref sig .tc := ⟨.hbm, 52, rfl⟩
abbrev main_v37 : Ref sig .tc := ⟨.hbm, 53, rfl⟩
abbrev main_v38 : Ref sig .tc := ⟨.hbm, 54, rfl⟩
abbrev main_c_5 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_6 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]

class Facts₀ : Prop where
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LibColumnForms.lean ====
/-
  Two layout operations read at an index, in the column forms: a vector turned into a one-column matrix, and a
  one-column matrix repeated along its rows' second axis. General statements over any extents.
-/
import Idealize.ShloMosaic.Lib.Pipeline.Value
import Idealize.ShloMosaic.Lib.ValueIdx
import Idealize.ShloMosaic.Lib.ValueLayout

noncomputable section

namespace Idealize.ShloMosaic.ColumnForms

open Idealize.ShloMosaic Idealize.ShloMosaic.ValueIdx

variable {α : Type}

/-- An `[a]` array cast to `[a, 1]` reads, at `(i, u)`, the operand at `i`, whatever the unit coordinate `u`:
    both indices have the same row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnForms

end
-- ==== Proof.Region0.lean ====
/-
  A layer's first dense step, as the row-tiled region computes it: the output array as ONE function of the three
  arrays the region reads. Grid point t holds rows 5000 t to 5000 t + 4999 of the left array, of the one-column factor
  array and of the output, and the whole right array; its body multiplies the left block by the right array into a
  zero accumulator and scales each row by that row's factor. The twenty blocks tile the 100000 rows, so entry (r, q)
  of the output is row r of the left array times column q of the right one, times row r's factor.
-/
import proofs.«103828_j24773371363585_1_alg».proof.Proof.Gen.KernelIdeal.Frame
import proofs.«103828_j24773371363585_1_alg».proof.Proof.LibColumnForms
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.SL.Sem
open Idealize.ShloMosaic.ValueIdx Idealize.ShloMosaic.ColumnForms
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The body's matrix product read at an index -/

theorem lhs_0 (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_1 (i : S5000x64.Idx) (q : dot_S5000x128_S128x64_S5000x64_1_0_0_1_n_n.contr.Idx) : (dot_S5000x128_S128x64_S5000x64_1_0_0_1_n_n.lhsIdx i q 1).val = (q ⟨0, by decide⟩).val :=
  dot_S5000x128_S128x64_S5000x64_1_0_0_1_n_n.lhsIdx_val_of_single rfl i q
theorem rhs_0 (i : S5000x64.Idx) (q : dot_S5000x128_S128x64_S5000x64_1_0_0_1_n_n.contr.Idx) : (dot_S5000x128_S128x64_S5000x64_1_0_0_1_n_n.rhsIdx i q 0).val = (q ⟨0, by decide⟩).val :=
  dot_S5000x128_S128x64_S5000x64_1_0_0_1_n_n.rhsIdx_val_of_single rfl i q
theorem rhs_1 (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The block's product into the zero accumulator, at entry `(p, q)`: the sum over `k` of row `p` of the left block
    times column `q` of the right one. -/
theorem matmul_at (x : FVec Ideal S5000x128 .bf16) (w : FVec Ideal S128x64 .bf16) (p : Fin 5000) (q : Fin 64) :
    matmul dot_S5000x128_S128x64_S5000x64_1_0_0_1_n_n none x w (constant (F := Ideal) S5000x64 .f32 0x00000000#32) (ix2 p q)
      = ∑ k : Fin 128, x (ix2 p k) * w (ix2 k q) := by
  show FloatOps.matmul dot_S5000x128_S128x64_S5000x64_1_0_0_1_n_n none x w (constant (F := Ideal) S5000x64 .f32 0x00000000#32) (ix2 p q) = _
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The body's stored value at entry `(p, q)`: the product's entry scaled by row `p`'s factor (the change of
    float format before the product is the identity on extended reals). -/
theorem body_at (x0 : Vec Ideal S5000x128 .f32) (x1 : Vec Ideal S128x64 .f32) (x2 : Vec Ideal S5000x1 .f32) (p : Fin 5000) (q : Fin 64) :
    k0_pay1 x0 x1 x2 (ix2 p q) = (∑ k : Fin 128, x0 (ix2 p k) * x1 (ix2 k q)) * x2 (ix2 p (0 : Fin 1)) := by
  unfold k0_pay1
  simp only [shapeCast_self]
  rw [mulf_apply, matmul_at, broadcastTo_a1_ab_apply]
  rfl

/-! ## The whole output array -/

abbrev lrow (i : S100000x64.Idx) (k : Fin 128) : S100000x128.Idx := fun a => match a with
  | ⟨0, _⟩ => ⟨(i 0).val, (i 0).isLt⟩
  | ⟨1, _⟩ => ⟨k.val, k.isLt⟩
abbrev rcol (i : S100000x64.Idx) (k : Fin 128) : S128x64.Idx := fun a => match a with
  | ⟨0, _⟩ => ⟨k.val, k.isLt⟩
  | ⟨1, _⟩ => ⟨(i 1).val, (i 1).isLt⟩
abbrev colOf (i : S100000x64.Idx) : S100000x1.Idx := fun a => match a with
  | ⟨0, _⟩ => ⟨(i 0).val, (i 0).isLt⟩
  | ⟨1, _⟩ => ⟨0, Nat.one_pos⟩

/-- The arrays the region reads, at their literal types. -/
abbrev arrX (c : Dev nD) : Vec Ideal S100000x128 .f32 := V c main_arg0
abbrev arrW (c : Dev nD) : Vec Ideal S128x64 .f32 := V c main_arg3
abbrev arrN (c : Dev nD) : Vec Ideal S100000x1 .f32 := V c main_v12

/-- Entry `(r, q)` of the result: row `r` of `x` times column `q` of `w`, scaled by row `r`'s factor. -/
def linScale (x : Vec Ideal S100000x128 .f32) (w : Vec Ideal S128x64 .f32) (n2 : Vec Ideal S100000x1 .f32) : Vec Ideal S100000x64 .f32 :=
  fun i => (∑ k : Fin 128, x (lrow i k) * w (rcol i k)) * n2 (colOf i)

/-- The printed index maps over the grid: the row blocks of `x`, of the factors and of the output move together,
    `w` stays whole. -/
theorem idx_facts : ∀ t : Fin cfg0.N, win0_0.index t (0 : Fin 2) = win0_3.index t (0 : Fin 2)
    ∧ win0_0.index t (1 : Fin 2) = 0 ∧ win0_1.index t (0 : Fin 2) = 0
    ∧ win0_1.index t (1 : Fin 2) = 0 ∧ win0_2.index t (0 : Fin 2) = win0_3.index t (0 : Fin 2) ∧ win0_2.index t (1 : Fin 2) = 0
    ∧ win0_3.index t (1 : Fin 2) = 0 ∧ win0_3.index t (0 : Fin 2) = t.val :=
  (by decide +kernel : ∀ t : Fin grid0.N, _)

/-- What point `t` writes back is block `t` of `linScale` of the arrays as the region finds them. -/
theorem flushed_eq (c : Dev nD) (t : Fin cfg0.N) :
    (dat0 V c).flushed 3 t = ((cfg0.win 3).blk t).view.read (Elt Ideal) (linScale (arrX V c) (arrW V c) (arrN V c)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x64) hz, View.ld_unit_zero (S := S5000x1) hz]
  funext j
  obtain ⟨p, q, rfl⟩ : ∃ (p : Fin 5000) (q : Fin 64), j = ix2 p q := ⟨j 0, j 1, eq_ix2 j⟩
  refine (body_at (iblk0 V c 0 t) (iblk0 V c 1 t) (iblk0 V c 2 t) p q).trans ?_
  obtain ⟨e0, e1, e2, e3, e4, e5, e6, e7⟩ := idx_facts t
  show (∑ k : Fin 128, arrX V c (((cfg0.win 0).blk t).view.emb (ix2 p k)) * arrW V c (((cfg0.win 1).blk t).view.emb (ix2 k q)))
        * arrN V c (((cfg0.win 2).blk t).view.emb (ix2 p (0 : Fin 1)))
      = (∑ k : Fin 128, arrX V c (lrow (((cfg0.win 3).blk t).view.emb (ix2 p q)) k) * arrW V c (rcol (((cfg0.win 3).blk t).view.emb (ix2 p q)) k))
        * arrN V c (colOf (((cfg0.win 3).blk t).view.emb (ix2 p q)))
  have h0 : ∀ k : Fin 128, ((cfg0.win 0).blk t).view.emb (ix2 p k) = lrow (((cfg0.win 3).blk t).view.emb (ix2 p q)) k := by
    intro k; funext a; apply Fin.ext
    match a with
    | ⟨0, _⟩ => show win0_0.index t (0 : Fin 2) * 5000 + 1 * p.val = win0_3.index t (0 : Fin 2) * 5000 + 1 * p.val; rw [e0]
    | ⟨1, _⟩ => show win0_0.index t (1 : Fin 2) * 128 + 1 * k.val = k.val; rw [e1]; omega
  have h1 : ∀ k : Fin 128, ((cfg0.win 1).blk t).view.emb (ix2 k q) = rcol (((cfg0.win 3).blk t).view.emb (ix2 p q)) k := by
    intro k; funext a; apply Fin.ext
    match a with
    | ⟨0, _⟩ => show win0_1.index t (0 : Fin 2) * 128 + 1 * k.val = k.val; rw [e2]; omega
    | ⟨1, _⟩ => show win0_1.index t (1 : Fin 2) * 64 + 1 * q.val = win0_3.index t (1 : Fin 2) * 64 + 1 * q.val; rw [e3, e6]
  have h2 : ((cfg0.win 2).blk t).view.emb (ix2 p (0 : Fin 1)) = colOf (((cfg0.win 3).blk t).view.emb (ix2 p q)) := by
    funext a; apply Fin.ext
    match a with
    | ⟨0, _⟩ => show win0_2.index t (0 : Fin 2) * 5000 + 1 * p.val = win0_3.index t (0 : Fin 2) * 5000 + 1 * p.val; rw [e4]
    | ⟨1, _⟩ => show win0_2.index t (1 : Fin 2) * 1 + 1 * 0 = 0; rw [e5]
  rw [h2]
  exact congrArg (· * _) (Finset.sum_congr rfl fun k _ => by rw [h0 k, h1 k])

/-- An index of the array is in point `t`'s block iff each coordinate is in the block's range on its axis. -/
theorem mem_blk (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v13).slice (win0_3.rect t)).set ↔ _
  rw [View.set_slice_whole, Rect.mem_set_unit]
  exact Iff.rfl

/-- Row `r` of the array lies in the block of point `r / 5000`: the twenty blocks of 5000 rows tile the 100000 rows. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  have hlt : (i 0).val / 5000 < cfg0.N := by rw [hN]; omega
  refine ⟨⟨(i 0).val / 5000, hlt⟩, flush0_3 _, ?_⟩
  rw [mem_blk]
  obtain ⟨-, -, -, -, -, -, e6, e7⟩ := idx_facts ⟨(i 0).val / 5000, hlt⟩
  intro a
  match a with
  | ⟨0, _⟩ =>
    show win0_3.index ⟨(i 0).val / 5000, hlt⟩ (0 : Fin 2) * 5000 ≤ (i 0).val ∧ (i 0).val < win0_3.index ⟨(i 0).val / 5000, hlt⟩ (0 : Fin 2) * 5000 + 5000
    rw [e7]; show (i 0).val / 5000 * 5000 ≤ (i 0).val ∧ (i 0).val < (i 0).val / 5000 * 5000 + 5000; omega
  | ⟨1, _⟩ =>
    show win0_3.index ⟨(i 0).val / 5000, hlt⟩ (1 : Fin 2) * 64 ≤ (i 1).val ∧ (i 1).val < win0_3.index ⟨(i 0).val / 5000, hlt⟩ (1 : Fin 2) * 64 + 64
    rw [e6]; omega

/-- The region's output array after the run: every entry its row of `x` times its column of `w`, scaled by the row's factor. -/
theorem final (c : Dev nD) : (dat0 V c).arrAt 3 cfg0.N = linScale (arrX V c) (arrW V c) (arrN V c) :=
  (dat0 V c).arrAt_eq_of_cover 3 (linScale (arrX V c) (arrW V c) (arrN V c)) (fun t _ => flushed_eq V c t) cover

end Cert.KernelIdeal.Region0

end
-- ==== Proof.Region1.lean ====
/-
  A layer's second dense step, as the row-tiled region computes it: the output array as ONE function of the three
  arrays the region reads. Grid point t holds rows 5000 t to 5000 t + 4999 of the aggregated array, of the one-column
  factor array and of the output, and the whole one-row bias array; its body scales each row by that row's factor and
  adds each column's bias, then takes the larger of the sum and zero. The twenty blocks tile the 100000 rows, so entry (r, q) of the output is the larger of
  zero and the aggregated entry times row r's factor plus column q's bias.
-/
import proofs.«103828_j24773371363585_1_alg».proof.Proof.Gen.KernelIdeal.Frame
import proofs.«103828_j24773371363585_1_alg».proof.Proof.LibColumnForms
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.SL.Sem
open Idealize.ShloMosaic.ValueIdx Idealize.ShloMosaic.ColumnForms
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry `(p, q)`: the larger of zero and the loaded entry times row `p`'s factor plus column `q`'s bias. -/
theorem body_at (g : Vec Ideal S5000x64 .f32) (n : Vec Ideal S5000x1 .f32) (b : Vec Ideal S1x64 .f32) (p : Fin 5000) (q : Fin 64) :
    k1_pay1 g n b (ix2 p q) = max (g (ix2 p q) * n (ix2 p (0 : Fin 1)) + b (ix2 (0 : Fin 1) q)) (FloatOps.ofBits (F := Ideal) .f32 0x00000000#32) := by
  unfold k1_pay1
  simp only [shapeCast_self]
  rw [maximumf_apply, addf_apply, mulf_apply, broadcastTo_a1_ab_apply, broadcastTo_1b_ab_apply, broadcast_apply]

/-- Row `r`'s entry of the one-column factor array, and column `q`'s entry of the one-row bias array. -/
abbrev colOf (i : S100000x64.Idx) : S100000x1.Idx := fun a => match a with
  | ⟨0, _⟩ => ⟨(i 0).val, (i 0).isLt⟩
  | ⟨1, _⟩ => ⟨0, Nat.one_pos⟩
abbrev rowOf (i : S100000x64.Idx) : S1x64.Idx := fun a => match a with
  | ⟨0, _⟩ => ⟨0, Nat.one_pos⟩
  | ⟨1, _⟩ => ⟨(i 1).val, (i 1).isLt⟩

/-- The arrays the region reads, at their literal types. -/
abbrev arrG (c : Dev nD) : Vec Ideal S100000x64 .f32 := V c main_v23
abbrev arrN (c : Dev nD) : Vec Ideal S100000x1 .f32 := V c main_v24
abbrev arrB (c : Dev nD) : Vec Ideal S1x64 .f32 := V c main_v25

/-- Entry `(r, q)` of the result: the larger of zero and the aggregated entry times row `r`'s factor plus column `q`'s bias. -/
def scaleBiasRelu (g : Vec Ideal S100000x64 .f32) (n2 : Vec Ideal S100000x1 .f32) (b2 : Vec Ideal S1x64 .f32) : Vec Ideal S100000x64 .f32 :=
  fun i => max (g i * n2 (colOf i) + b2 (rowOf i)) (FloatOps.ofBits (F := Ideal) .f32 0x00000000#32)

/-- The printed index maps over the grid: the row blocks of the three row-indexed arrays move together, the bias
    row stays whole. -/
theorem idx_facts : ∀ t : Fin cfg1.N, win1_0.index t (0 : Fin 2) = win1_3.index t (0 : Fin 2)
    ∧ win1_0.index t (1 : Fin 2) = 0 ∧ win1_1.index t (0 : Fin 2) = win1_3.index t (0 : Fin 2)
    ∧ win1_1.index t (1 : Fin 2) = 0 ∧ win1_2.index t (0 : Fin 2) = 0 ∧ win1_2.index t (1 : Fin 2) = 0
    ∧ win1_3.index t (1 : Fin 2) = 0 ∧ win1_3.index t (0 : Fin 2) = t.val :=
  (by decide +kernel : ∀ t : Fin grid1.N, _)

/-- What point `t` writes back is block `t` of `scaleBiasRelu` of the arrays as the region finds them. -/
theorem flushed_eq (c : Dev nD) (t : Fin cfg1.N) :
    (dat1 V c).flushed 3 t = ((cfg1.win 3).blk t).view.read (Elt Ideal) (scaleBiasRelu (arrG V c) (arrN V c) (arrB V c)) := by
  show (cfg1.win 3).cut (grid1.coords t) ((dat1 V c).after 3 t) = _
  rw [after1_3]
  unfold out1_3
  rw [View.canon_unit_zero hz]
  simp only [View.ld_unit_zero (S := S5000x64) hz, View.ld_unit_zero (S := S5000x1) hz, View.ld_unit_zero (S := S1x64) hz]
  funext j
  obtain ⟨p, q, rfl⟩ : ∃ (p : Fin 5000) (q : Fin 64), j = ix2 p q := ⟨j 0, j 1, eq_ix2 j⟩
  refine (body_at (iblk1 V c 0 t) (iblk1 V c 1 t) (iblk1 V c 2 t) p q).trans ?_
  obtain ⟨e0, e1, e2, e3, e4, e5, e6, e7⟩ := idx_facts t
  show max (arrG V c (((cfg1.win 0).blk t).view.emb (ix2 p q)) * arrN V c (((cfg1.win 1).blk t).view.emb (ix2 p (0 : Fin 1)))
        + arrB V c (((cfg1.win 2).blk t).view.emb (ix2 (0 : Fin 1) q))) (FloatOps.ofBits (F := Ideal) .f32 0x00000000#32)
      = max (arrG V c (((cfg1.win 3).blk t).view.emb (ix2 p q)) * arrN V c (colOf (((cfg1.win 3).blk t).view.emb (ix2 p q)))
        + arrB V c (rowOf (((cfg1.win 3).blk t).view.emb (ix2 p q)))) (FloatOps.ofBits (F := Ideal) .f32 0x00000000#32)
  have h0 : ((cfg1.win 0).blk t).view.emb (ix2 p q) = ((cfg1.win 3).blk t).view.emb (ix2 p q) := by
    funext a; apply Fin.ext
    match a with
    | ⟨0, _⟩ => show win1_0.index t (0 : Fin 2) * 5000 + 1 * p.val = win1_3.index t (0 : Fin 2) * 5000 + 1 * p.val; rw [e0]
    | ⟨1, _⟩ => show win1_0.index t (1 : Fin 2) * 64 + 1 * q.val = win1_3.index t (1 : Fin 2) * 64 + 1 * q.val; rw [e1, e6]
  have h1 : ((cfg1.win 1).blk t).view.emb (ix2 p (0 : Fin 1)) = colOf (((cfg1.win 3).blk t).view.emb (ix2 p q)) := by
    funext a; apply Fin.ext
    match a with
    | ⟨0, _⟩ => show win1_1.index t (0 : Fin 2) * 5000 + 1 * p.val = win1_3.index t (0 : Fin 2) * 5000 + 1 * p.val; rw [e2]
    | ⟨1, _⟩ => show win1_1.index t (1 : Fin 2) * 1 + 1 * 0 = 0; rw [e3]
  have h2 : ((cfg1.win 2).blk t).view.emb (ix2 (0 : Fin 1) q) = rowOf (((cfg1.win 3).blk t).view.emb (ix2 p q)) := by
    funext a; apply Fin.ext
    match a with
    | ⟨0, _⟩ => show win1_2.index t (0 : Fin 2) * 1 + 1 * 0 = 0; rw [e4]
    | ⟨1, _⟩ => show win1_2.index t (1 : Fin 2) * 64 + 1 * q.val = win1_3.index t (1 : Fin 2) * 64 + 1 * q.val; rw [e5, e6]
  rw [h0, h1, h2]

/-- An index of the array is in point `t`'s block iff each coordinate is in the block's range on its axis. -/
theorem mem_blk (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v26).slice (win1_3.rect t)).set ↔ _
  rw [View.set_slice_whole, Rect.mem_set_unit]
  exact Iff.rfl

/-- Row `r` of the array lies in the block of point `r / 5000`: the twenty blocks of 5000 rows tile the 100000 rows. -/
theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 20 := N_1
  have hlt : (i 0).val / 5000 < cfg1.N := by rw [hN]; omega
  refine ⟨⟨(i 0).val / 5000, hlt⟩, flush1_3 _, ?_⟩
  rw [mem_blk]
  obtain ⟨-, -, -, -, -, -, e6, e7⟩ := idx_facts ⟨(i 0).val / 5000, hlt⟩
  intro a
  match a with
  | ⟨0, _⟩ =>
    show win1_3.index ⟨(i 0).val / 5000, hlt⟩ (0 : Fin 2) * 5000 ≤ (i 0).val ∧ (i 0).val < win1_3.index ⟨(i 0).val / 5000, hlt⟩ (0 : Fin 2) * 5000 + 5000
    rw [e7]; show (i 0).val / 5000 * 5000 ≤ (i 0).val ∧ (i 0).val < (i 0).val / 5000 * 5000 + 5000; omega
  | ⟨1, _⟩ =>
    show win1_3.index ⟨(i 0).val / 5000, hlt⟩ (1 : Fin 2) * 64 ≤ (i 1).val ∧ (i 1).val < win1_3.index ⟨(i 0).val / 5000, hlt⟩ (1 : Fin 2) * 64 + 64
    rw [e6]; omega

/-- The region's output array after the run: every entry the larger of zero and the row's scaled value plus the column's bias. -/
theorem final (c : Dev nD) : (dat1 V c).arrAt 3 cfg1.N = scaleBiasRelu (arrG V c) (arrN V c) (arrB V c) :=
  (dat1 V c).arrAt_eq_of_cover 3 (scaleBiasRelu (arrG V c) (arrN V c) (arrB V c)) (fun t _ => flushed_eq V c t) cover

end Cert.KernelIdeal.Region1

end
-- ==== Proof.Region3.lean ====
/-
  A layer's second dense step, as the row-tiled region computes it: the output array as ONE function of the three
  arrays the region reads. Grid point t holds rows 5000 t to 5000 t + 4999 of the aggregated array, of the one-column
  factor array and of the output, and the whole one-row bias array; its body scales each row by that row's factor and
  adds each column's bias. The twenty blocks tile the 100000 rows, so entry (r, q) of the output is the aggregated
  entry times row r's factor plus column q's bias.
-/
import proofs.«103828_j24773371363585_1_alg».proof.Proof.Gen.KernelIdeal.Frame
import proofs.«103828_j24773371363585_1_alg».proof.Proof.LibColumnForms
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen
open Idealize.ShloMosaic Idealize.ShloMosaic.TcCoe Idealize.SL.Sem
open Idealize.ShloMosaic.ValueIdx Idealize.ShloMosaic.ColumnForms
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry `(p, q)`: the loaded entry times row `p`'s factor, plus column `q`'s bias. -/
theorem body_at (g : Vec Ideal S5000x64 .f32) (n : Vec Ideal S5000x1 .f32) (b : Vec Ideal S1x64 .f32) (p : Fin 5000) (q : Fin 64) :
    k3_pay1 g n b (ix2 p q) = g (ix2 p q) * n (ix2 p (0 : Fin 1)) + b (ix2 (0 : Fin 1) q) := by
  unfold k3_pay1
  simp only [shapeCast_self]
  rw [addf_apply, mulf_apply, broadcastTo_a1_ab_apply, broadcastTo_1b_ab_apply]

/-- Row `r`'s entry of the one-column factor array, and column `q`'s entry of the one-row bias array. -/
abbrev colOf (i : S100000x64.Idx) : S100000x1.Idx := fun a => match a with
  | ⟨0, _⟩ => ⟨(i 0).val, (i 0).isLt⟩
  | ⟨1, _⟩ => ⟨0, Nat.one_pos⟩
abbrev rowOf (i : S100000x64.Idx) : S1x64.Idx := fun a => match a with
  | ⟨0, _⟩ => ⟨0, Nat.one_pos⟩
  | ⟨1, _⟩ => ⟨(i 1).val, (i 1).isLt⟩

/-- The arrays the region reads, at their literal types. -/
abbrev arrG (c : Dev nD) : Vec Ideal S100000x64 .f32 := V c main_v38
abbrev arrN (c : Dev nD) : Vec Ideal S100000x1 .f32 := V c main_v39
abbrev arrB (c : Dev nD) : Vec Ideal S1x64 .f32 := V c main_v40

/-- Entry `(r, q)` of the result: the aggregated entry times row `r`'s factor, plus column `q`'s bias. -/
def scaleBias (g : Vec Ideal S100000x64 .f32) (n2 : Vec Ideal S100000x1 .f32) (b2 : Vec Ideal S1x64 .f32) : Vec Ideal S100000x64 .f32 :=
  fun i => g i * n2 (colOf i) + b2 (rowOf i)

/-- The printed index maps over the grid: the row blocks of the three row-indexed arrays move together, the bias
    row stays whole. -/
theorem idx_facts : ∀ t : Fin cfg3.N, win3_0.index t (0 : Fin 2) = win3_3.index t (0 : Fin 2)
    ∧ win3_0.index t (1 : Fin 2) = 0 ∧ win3_1.index t (0 : Fin 2) = win3_3.index t (0 : Fin 2)
    ∧ win3_1.index t (1 : Fin 2) = 0 ∧ win3_2.index t (0 : Fin 2) = 0 ∧ win3_2.index t (1 : Fin 2) = 0
    ∧ win3_3.index t (1 : Fin 2) = 0 ∧ win3_3.index t (0 : Fin 2) = t.val :=
  (by decide +kernel : ∀ t : Fin grid3.N, _)

/-- What point `t` writes back is block `t` of `scaleBias` of the arrays as the region finds them. -/
theorem flushed_eq (c : Dev nD) (t : Fin cfg3.N) :
    (dat3 V c).flushed 3 t = ((cfg3.win 3).blk t).view.read (Elt Ideal) (scaleBias (arrG V c) (arrN V c) (arrB V c)) := by
  show (cfg3.win 3).cut (grid3.coords t) ((dat3 V c).after 3 t) = _
  rw [after3_3]
  unfold out3_3
  rw [View.canon_unit_zero hz]
  simp only [View.ld_unit_zero (S := S5000x64) hz, View.ld_unit_zero (S := S5000x1) hz, View.ld_unit_zero (S := S1x64) hz]
  funext j
  obtain ⟨p, q, rfl⟩ : ∃ (p : Fin 5000) (q : Fin 64), j = ix2 p q := ⟨j 0, j 1, eq_ix2 j⟩
  refine (body_at (iblk3 V c 0 t) (iblk3 V c 1 t) (iblk3 V c 2 t) p q).trans ?_
  obtain ⟨e0, e1, e2, e3, e4, e5, e6, e7⟩ := idx_facts t
  show arrG V c (((cfg3.win 0).blk t).view.emb (ix2 p q)) * arrN V c (((cfg3.win 1).blk t).view.emb (ix2 p (0 : Fin 1)))
        + arrB V c (((cfg3.win 2).blk t).view.emb (ix2 (0 : Fin 1) q))
      = arrG V c (((cfg3.win 3).blk t).view.emb (ix2 p q)) * arrN V c (colOf (((cfg3.win 3).blk t).view.emb (ix2 p q)))
        + arrB V c (rowOf (((cfg3.win 3).blk t).view.emb (ix2 p q)))
  have h0 : ((cfg3.win 0).blk t).view.emb (ix2 p q) = ((cfg3.win 3).blk t).view.emb (ix2 p q) := by
    funext a; apply Fin.ext
    match a with
    | ⟨0, _⟩ => show win3_0.index t (0 : Fin 2) * 5000 + 1 * p.val = win3_3.index t (0 : Fin 2) * 5000 + 1 * p.val; rw [e0]
    | ⟨1, _⟩ => show win3_0.index t (1 : Fin 2) * 64 + 1 * q.val = win3_3.index t (1 : Fin 2) * 64 + 1 * q.val; rw [e1, e6]
  have h1 : ((cfg3.win 1).blk t).view.emb (ix2 p (0 : Fin 1)) = colOf (((cfg3.win 3).blk t).view.emb (ix2 p q)) := by
    funext a; apply Fin.ext
    match a with
    | ⟨0, _⟩ => show win3_1.index t (0 : Fin 2) * 5000 + 1 * p.val = win3_3.index t (0 : Fin 2) * 5000 + 1 * p.val; rw [e2]
    | ⟨1, _⟩ => show win3_1.index t (1 : Fin 2) * 1 + 1 * 0 = 0; rw [e3]
  have h2 : ((cfg3.win 2).blk t).view.emb (ix2 (0 : Fin 1) q) = rowOf (((cfg3.win 3).blk t).view.emb (ix2 p q)) := by
    funext a; apply Fin.ext
    match a with
    | ⟨0, _⟩ => show win3_2.index t (0 : Fin 2) * 1 + 1 * 0 = 0; rw [e4]
    | ⟨1, _⟩ => show win3_2.index t (1 : Fin 2) * 64 + 1 * q.val = win3_3.index t (1 : Fin 2) * 64 + 1 * q.val; rw [e5, e6]
  rw [h0, h1, h2]

/-- An index of the array is in point `t`'s block iff each coordinate is in the block's range on its axis. -/
theorem mem_blk (t : Fin cfg3.N) (i : S100000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v41).slice (win3_3.rect t)).set ↔ _
  rw [View.set_slice_whole, Rect.mem_set_unit]
  exact Iff.rfl

/-- Row `r` of the array lies in the block of point `r / 5000`: the twenty blocks of 5000 rows tile the 100000 rows. -/
theorem cover (i : S100000x64.Idx) : ∃ t : Fin cfg3.N, (cfg3.win 3).flush t = true ∧ i ∈ ((cfg3.win 3).blk t).view.set := by
  have hi0 : (i 0).val < 100000 := (i 0).isLt
  have hi1 : (i 1).val < 64 := (i 1).isLt
  have hN : cfg3.N = 20 := N_3
  have hlt : (i 0).val / 5000 < cfg3.N := by rw [hN]; omega
  refine ⟨⟨(i 0).val / 5000, hlt⟩, flush3_3 _, ?_⟩
  rw [mem_blk]
  obtain ⟨-, -, -, -, -, -, e6, e7⟩ := idx_facts ⟨(i 0).val / 5000, hlt⟩
  intro a
  match a with
  | ⟨0, _⟩ =>
    show win3_3.index ⟨(i 0).val / 5000, hlt⟩ (0 : Fin 2) * 5000 ≤ (i 0).val ∧ (i 0).val < win3_3.index ⟨(i 0).val / 5000, hlt⟩ (0 : Fin 2) * 5000 + 5000
    rw [e7]; show (i 0).val / 5000 * 5000 ≤ (i 0).val ∧ (i 0).val < (i 0).val / 5000 * 5000 + 5000; omega
  | ⟨1, _⟩ =>
    show win3_3.index ⟨(i 0).val / 5000, hlt⟩ (1 : Fin 2) * 64 ≤ (i 1).val ∧ (i 1).val < win3_3.index ⟨(i 0).val / 5000, hlt⟩ (1 : Fin 2) * 64 + 64
    rw [e6]; omega

/-- The region's output array after the run: every entry the row's scaled value plus the column's bias. -/
theorem final (c : Dev nD) : (dat3 V c).arrAt 3 cfg3.N = scaleBias (arrG V c) (arrN V c) (arrB V c) :=
  (dat3 V c).arrAt_eq_of_cover 3 (scaleBias (arrG V c) (arrN V c) (arrB V c)) (fun t _ => flushed_eq V c t) cover

end Cert.KernelIdeal.Region3

end
-- ==== Proof.Chain.lean ====
/-
  The kernel program's result array is the reference's last stage of the launched arguments.

  The program runs four row-tiled regions among stretches of host operations, and its buffers are read boundary by
  boundary. Before the first region the host appends the self-loops to the two index vectors, counts the out- and
  in-degrees by scatter-adding ones, and takes their inverse square roots: the same operations, on the same
  arguments, as the reference's first stages. Each region then leaves one whole-array function of the arrays it
  reads (Region0 to Region3), which is the reference's stage at that place: a product with the weights scaled by the
  source factor (the reference broadcasts the factor vector to a column, the kernel program reshapes it: the same
  array), and the gathered-and-summed aggregate scaled by the destination factor plus the bias (a vector reshaped
  to one row against the same vector broadcast to one row). Between the regions both programs gather along the
  edges and scatter-add into the destinations with the same operations, so equal inputs give equal outputs. No
  step uses finiteness of the inputs: both sides apply the same operations in the same order at every entry.
-/
import proofs.«103828_j24773371363585_1_alg».proof.Proof.Gen.KernelIdeal.Frame
import proofs.«103828_j24773371363585_1_alg».proof.Proof.Gen.ReferenceIdeal.Read
import proofs.«103828_j24773371363585_1_alg».proof.Proof.Region0
import proofs.«103828_j24773371363585_1_alg».proof.Proof.Region1
import proofs.«103828_j24773371363585_1_alg».proof.Proof.Region2
import proofs.«103828_j24773371363585_1_alg».proof.Proof.Region3
import proofs.«103828_j24773371363585_1_alg».proof.Proof.LibColumnForms
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Chain

open Cert.KernelIdeal Cert.KernelIdeal.Gen Cert.ReferenceIdeal.Read
open Idealize.ShloMosaic Idealize.ShloMosaic.TcCoe Idealize.SL.Sem Idealize.ShloMosaic.StableHlo
open Idealize.ShloMosaic.ValueIdx Idealize.ShloMosaic.ColumnForms

variable (m : (ℓ : Loc nD τ sig) → Buf (Elt Ideal) ℓ) (ρ : Dev nD → PrngReg) (c : Dev nD)

/-- The seven argument arrays as launched. -/
abbrev a0 : (⟨Cert.ReferenceIdeal.S100000x128, .f32⟩ : BufTy).Contents (Elt Ideal) := m ((c : Thread nD τ).loc main_arg0)
abbrev a1 : (⟨Cert.ReferenceIdeal.S1600000, .i32⟩ : BufTy).Contents (Elt Ideal) := m ((c : Thread nD τ).loc main_arg1)
abbrev a2 : (⟨Cert.ReferenceIdeal.S1600000, .i32⟩ : BufTy).Contents (Elt Ideal) := m ((c : Thread nD τ).loc main_arg2)
abbrev a3 : (⟨Cert.ReferenceIdeal.S128x64, .f32⟩ : BufTy).Contents (Elt Ideal) := m ((c : Thread nD τ).loc main_arg3)
abbrev a4 : (⟨Cert.ReferenceIdeal.S64, .f32⟩ : BufTy).Contents (Elt Ideal) := m ((c : Thread nD τ).loc main_arg4)
abbrev a5 : (⟨Cert.ReferenceIdeal.S64x64, .f32⟩ : BufTy).Contents (Elt Ideal) := m ((c : Thread nD τ).loc main_arg5)
abbrev a6 : (⟨Cert.ReferenceIdeal.S64, .f32⟩ : BufTy).Contents (Elt Ideal) := m ((c : Thread nD τ).loc main_arg6)

/-! ## The buffers that cross several boundaries unchanged

The two index vectors with their self-loops, the two degree factors and the second layer's arguments are written
before the first region (or never) and only read afterwards: no region has one of them as a window's array, and no
later host operation writes one. -/

/-- The buffers carried along. -/
def Carried (b : Ref sig .tc) : Prop := b = main_v1 ∨ b = main_v2 ∨ b = main_v10 ∨ b = main_v11 ∨ b = main_arg4 ∨ b = main_arg5 ∨ b = main_arg6

theorem keep12 (b : Ref sig .tc) (hb : Carried b) : W2 m ρ c (Proc.devRef .tc b) = W1 m ρ c (Proc.devRef .tc b) := by
  rcases hb with rfl | rfl | rfl | rfl | rfl | rfl | rfl <;> exact W2_of_ne m ρ c _ (by decide)
theorem keep23 (b : Ref sig .tc) (hb : Carried b) : W3 m ρ c (Proc.devRef .tc b) = W2 m ρ c (Proc.devRef .tc b) := by
  rcases hb with rfl | rfl | rfl | rfl | rfl | rfl | rfl <;>
    (show StableHlo.after hostOps1 (W2 m ρ c) (Proc.devRef .tc _) = _; after_results)
theorem keep34 (b : Ref sig .tc) (hb : Carried b) : W4 m ρ c (Proc.devRef .tc b) = W3 m ρ c (Proc.devRef .tc b) := by
  rcases hb with rfl | rfl | rfl | rfl | rfl | rfl | rfl <;> exact W4_of_ne m ρ c _ (by decide)
theorem keep45 (b : Ref sig .tc) (hb : Carried b) : W5 m ρ c (Proc.devRef .tc b) = W4 m ρ c (Proc.devRef .tc b) := by
  rcases hb with rfl | rfl | rfl | rfl | rfl | rfl | rfl <;>
    (show StableHlo.after hostOps2 (W4 m ρ c) (Proc.devRef .tc _) = _; after_results)
/-- Those still read after the second product region. -/
def Late (b : Ref sig .tc) : Prop := b = main_v1 ∨ b = main_v2 ∨ b = main_v11 ∨ b = main_arg6
theorem Late.carried {b : Ref sig .tc} (hb : Late b) : Carried b := by
  rcases hb with rfl | rfl | rfl | rfl
  · exact .inl rfl
  · exact .inr (.inl rfl)
  · exact .inr (.inr (.inr (.inl rfl)))
  · exact .inr (.inr (.inr (.inr (.inr (.inr rfl)))))
theorem keep56 (b : Ref sig .tc) (hb : Late b) : W6 m ρ c (Proc.devRef .tc b) = W5 m ρ c (Proc.devRef .tc b) := by
  rcases hb with rfl | rfl | rfl | rfl <;> exact W6_of_ne m ρ c _ (by decide)

theorem to2 (b : Ref sig .tc) (hb : Carried b) : W2 m ρ c (Proc.devRef .tc b) = W1 m ρ c (Proc.devRef .tc b) := keep12 m ρ c b hb
theorem to4 (b : Ref sig .tc) (hb : Carried b) : W4 m ρ c (Proc.devRef .tc b) = W1 m ρ c (Proc.devRef .tc b) :=
  (keep34 m ρ c b hb).trans ((keep23 m ρ c b hb).trans (keep12 m ρ c b hb))
theorem to6 (b : Ref sig .tc) (hb : Late b) : W6 m ρ c (Proc.devRef .tc b) = W1 m ρ c (Proc.devRef .tc b) :=
  (keep56 m ρ c b hb).trans ((keep45 m ρ c b hb.carried).trans (to4 m ρ c b hb.carried))

/-! ## Before the first region: the self-loops appended, the degrees counted, their inverse square roots taken -/

theorem w1_arg0 : W1 m ρ c (Proc.devRef .tc main_arg0) = a0 m c := by
  show StableHlo.after hostOps0 (W0 m ρ c) (Proc.devRef .tc main_arg0) = _; after_results
theorem w1_arg3 : W1 m ρ c (Proc.devRef .tc main_arg3) = a3 m c := by
  show StableHlo.after hostOps0 (W0 m ρ c) (Proc.devRef .tc main_arg3) = _; after_results
theorem w1_arg4 : W1 m ρ c (Proc.devRef .tc main_arg4) = a4 m c := by
  show StableHlo.after hostOps0 (W0 m ρ c) (Proc.devRef .tc main_arg4) = _; after_results
theorem w1_arg5 : W1 m ρ c (Proc.devRef .tc main_arg5) = a5 m c := by
  show StableHlo.after hostOps0 (W0 m ρ c) (Proc.devRef .tc main_arg5) = _; after_results
theorem w1_arg6 : W1 m ρ c (Proc.devRef .tc main_arg6) = a6 m c := by
  show StableHlo.after hostOps0 (W0 m ρ c) (Proc.devRef .tc main_arg6) = _; after_results
theorem w1_v1 : W1 m ρ c (Proc.devRef .tc main_v1) = val_main_v1 (a1 m c) := by
  show StableHlo.after hostOps0 (W0 m ρ c) (Proc.devRef .tc main_v1) = _; after_results; rfl
theorem w1_v2 : W1 m ρ c (Proc.devRef .tc main_v2) = val_main_v2 (a2 m c) := by
  show StableHlo.after hostOps0 (W0 m ρ c) (Proc.devRef .tc main_v2) = _; after_results; rfl
theorem w1_v10 : W1 m ρ c (Proc.devRef .tc main_v10) = val_main_v10 (a1 m c) := by
  show StableHlo.after hostOps0 (W0 m ρ c) (Proc.devRef .tc main_v10) = _; after_results; rfl
theorem w1_v11 : W1 m ρ c (Proc.devRef .tc main_v11) = val_main_v11 (a2 m c) := by
  show StableHlo.after hostOps0 (W0 m ρ c) (Proc.devRef .tc main_v11) = _; after_results; rfl

/-! ## A vector as a one-column or one-row matrix: the reshape the kernel's program does and the broadcast the
    reference's does give the same array -/

theorem col_eq (v : (⟨Cert.ReferenceIdeal.S100000, .f32⟩ : BufTy).Contents (Elt Ideal)) :
    shapeCast S100000x1 v shapeCasts_S100000_S100000x1
      = broadcastInDim Cert.ReferenceIdeal.S100000x1 ![0] Cert.ReferenceIdeal.Gen.bcast_S100000_S100000x1_0 v := by
  funext i
  obtain ⟨p, u, rfl⟩ : ∃ (p : Fin 100000) (u : Fin 1), i = ix2 p u := ⟨i 0, i 1, eq_ix2 i⟩
  rw [shapeCast_a_a1_apply]
  exact (broadcastInDim_apply _ Cert.ReferenceIdeal.Gen.bcast_S100000_S100000x1_0 v (ix2 p u) (ix1 p) (fun a => match a with
    | ⟨0, _⟩ => by show p.val = if (100000 : Nat) = 1 then 0 else p.val; rw [if_neg (by decide)])).symm

theorem row_eq (v : (⟨Cert.ReferenceIdeal.S64, .f32⟩ : BufTy).Contents (Elt Ideal)) :
    shapeCast S1x64 v shapeCasts_S64_S1x64
      = broadcastInDim Cert.ReferenceIdeal.S1x64 ![1] Cert.ReferenceIdeal.Gen.bcast_S64_S1x64_1 v := by
  funext i
  obtain ⟨u, q, rfl⟩ : ∃ (u : Fin 1) (q : Fin 64), i = ix2 u q := ⟨i 0, i 1, eq_ix2 i⟩
  rw [shapeCast_a_1a_apply]
  exact (broadcastInDim_apply _ Cert.ReferenceIdeal.Gen.bcast_S64_S1x64_1 v (ix2 u q) (ix1 q) (fun a => match a with
    | ⟨0, _⟩ => by show q.val = if (64 : Nat) = 1 then 0 else q.val; rw [if_neg (by decide)])).symm

theorem w1_v12 : W1 m ρ c (Proc.devRef .tc main_v12) = val_main_v13 (a1 m c) := by
  show StableHlo.after hostOps0 (W0 m ρ c) (Proc.devRef .tc main_v12) = _
  after_results
  exact (rfl : _ = shapeCast S100000x1 (val_main_v10 (a1 m c)) shapeCasts_S100000_S100000x1).trans (col_eq _)

/-! ## Each region's whole-array function is the reference's stage -/

/-- First layer's product scaled by the source-degree factor. -/
theorem lin0 (x0 : (⟨Cert.ReferenceIdeal.S100000x128, .f32⟩ : BufTy).Contents (Elt Ideal)) (x1 : (⟨Cert.ReferenceIdeal.S1600000, .i32⟩ : BufTy).Contents (Elt Ideal))
    (x3 : (⟨Cert.ReferenceIdeal.S128x64, .f32⟩ : BufTy).Contents (Elt Ideal)) :
    Region0.linScale x0 x3 (val_main_v13 x1) = val_main_v15 x0 x1 x3 := by
  funext i
  rw [val_main_v15_apply, val_main_v12_apply, val_main_v14_apply]
  rfl

/-- First layer's aggregate scaled by the destination-degree factor, plus the bias, clipped below at zero. -/
theorem lin1 (x0 : (⟨Cert.ReferenceIdeal.S100000x128, .f32⟩ : BufTy).Contents (Elt Ideal)) (x1 x2 : (⟨Cert.ReferenceIdeal.S1600000, .i32⟩ : BufTy).Contents (Elt Ideal))
    (x3 : (⟨Cert.ReferenceIdeal.S128x64, .f32⟩ : BufTy).Contents (Elt Ideal)) (x4 : (⟨Cert.ReferenceIdeal.S64, .f32⟩ : BufTy).Contents (Elt Ideal)) :
    Region1.scaleBiasRelu (val_main_v25 x0 x1 x2 x3) (val_main_v26 x2) (val_main_v29 x4) = val_main_v32 x0 x1 x2 x3 x4 := by
  funext i
  rw [val_main_v32_apply, val_main_v31_apply, val_main_v28_apply, val_main_v27_apply, val_main_v30_apply, val_main_call0_v0_apply, val_main_call0_cst_apply]
  rfl

/-- Second layer's product scaled by the source-degree factor. -/
theorem lin2 (x0 : (⟨Cert.ReferenceIdeal.S100000x128, .f32⟩ : BufTy).Contents (Elt Ideal)) (x1 x2 : (⟨Cert.ReferenceIdeal.S1600000, .i32⟩ : BufTy).Contents (Elt Ideal))
    (x3 : (⟨Cert.ReferenceIdeal.S128x64, .f32⟩ : BufTy).Contents (Elt Ideal)) (x4 : (⟨Cert.ReferenceIdeal.S64, .f32⟩ : BufTy).Contents (Elt Ideal))
    (x5 : (⟨Cert.ReferenceIdeal.S64x64, .f32⟩ : BufTy).Contents (Elt Ideal)) :
    Region2.linScale (val_main_v32 x0 x1 x2 x3 x4) x5 (val_main_v34 x1) = val_main_v36 x0 x1 x2 x3 x4 x5 := by
  funext i
  rw [val_main_v36_apply, val_main_v33_apply, val_main_v35_apply]
  rfl

/-- Second layer's aggregate scaled by the destination-degree factor, plus the bias. -/
theorem lin3 (x0 : (⟨Cert.ReferenceIdeal.S100000x128, .f32⟩ : BufTy).Contents (Elt Ideal)) (x1 x2 : (⟨Cert.ReferenceIdeal.S1600000, .i32⟩ : BufTy).Contents (Elt Ideal))
    (x3 : (⟨Cert.ReferenceIdeal.S128x64, .f32⟩ : BufTy).Contents (Elt Ideal)) (x4 : (⟨Cert.ReferenceIdeal.S64, .f32⟩ : BufTy).Contents (Elt Ideal))
    (x5 : (⟨Cert.ReferenceIdeal.S64x64, .f32⟩ : BufTy).Contents (Elt Ideal)) (x6 : (⟨Cert.ReferenceIdeal.S64, .f32⟩ : BufTy).Contents (Elt Ideal)) :
    Region3.scaleBias (val_main_v46 x0 x1 x2 x3 x4 x5) (val_main_v47 x2) (val_main_v50 x6) = val_main_v52 x0 x1 x2 x3 x4 x5 x6 := by
  funext i
  rw [val_main_v52_apply, val_main_v49_apply, val_main_v48_apply, val_main_v51_apply]
  rfl

/-! ## Boundary by boundary -/

theorem w2_v13 : W2 m ρ c (Proc.devRef .tc main_v13) = val_main_v15 (a0 m c) (a1 m c) (a3 m c) := by
  have h := (W2_arr m ρ c 3).trans (Region0.final (V1 m ρ) c)
  rw [show Region0.arrX (V1 m ρ) c = a0 m c from w1_arg0 m ρ c, show Region0.arrW (V1 m ρ) c = a3 m c from w1_arg3 m ρ c,
    show Region0.arrN (V1 m ρ) c = val_main_v13 (a1 m c) from w1_v12 m ρ c] at h
  exact h.trans (lin0 _ _ _)

theorem w3_v23 : W3 m ρ c (Proc.devRef .tc main_v23) = val_main_v25 (a0 m c) (a1 m c) (a2 m c) (a3 m c) := by
  show StableHlo.after hostOps1 (W2 m ρ c) (Proc.devRef .tc main_v23) = _
  after_results
  rw [w2_v13, (to2 m ρ c main_v1 (.inl rfl)).trans (w1_v1 m ρ c), (to2 m ρ c main_v2 (.inr (.inl rfl))).trans (w1_v2 m ρ c)]
  rfl
theorem w3_v24 : W3 m ρ c (Proc.devRef .tc main_v24) = val_main_v26 (a2 m c) := by
  show StableHlo.after hostOps1 (W2 m ρ c) (Proc.devRef .tc main_v24) = _
  after_results
  rw [(to2 m ρ c main_v11 (.inr (.inr (.inr (.inl rfl))))).trans (w1_v11 m ρ c)]
  exact (rfl : _ = shapeCast S100000x1 (val_main_v11 (a2 m c)) shapeCasts_S100000_S100000x1).trans (col_eq _)
theorem w3_v25 : W3 m ρ c (Proc.devRef .tc main_v25) = val_main_v29 (a4 m c) := by
  show StableHlo.after hostOps1 (W2 m ρ c) (Proc.devRef .tc main_v25) = _
  after_results
  rw [(to2 m ρ c main_arg4 (.inr (.inr (.inr (.inr (.inl rfl)))))).trans (w1_arg4 m ρ c)]
  exact (rfl : _ = shapeCast S1x64 (a4 m c) shapeCasts_S64_S1x64).trans (row_eq _)

theorem w4_v26 : W4 m ρ c (Proc.devRef .tc main_v26) = val_main_v32 (a0 m c) (a1 m c) (a2 m c) (a3 m c) (a4 m c) := by
  have h := (W4_arr m ρ c 3).trans (Region1.final (V3 m ρ) c)
  rw [show Region1.arrG (V3 m ρ) c = _ from w3_v23 m ρ c, show Region1.arrN (V3 m ρ) c = _ from w3_v24 m ρ c,
    show Region1.arrB (V3 m ρ) c = _ from w3_v25 m ρ c] at h
  exact h.trans (lin1 _ _ _ _ _)

theorem w5_v26 : W5 m ρ c (Proc.devRef .tc main_v26) = val_main_v32 (a0 m c) (a1 m c) (a2 m c) (a3 m c) (a4 m c) := by
  show StableHlo.after hostOps2 (W4 m ρ c) (Proc.devRef .tc main_v26) = _
  after_results
  exact w4_v26 m ρ c
theorem w5_arg5 : W5 m ρ c (Proc.devRef .tc main_arg5) = a5 m c :=
  (keep45 m ρ c main_arg5 (.inr (.inr (.inr (.inr (.inr (.inl rfl))))))).trans ((to4 m ρ c main_arg5 (.inr (.inr (.inr (.inr (.inr (.inl rfl))))))).trans (w1_arg5 m ρ c))
theorem w5_v27 : W5 m ρ c (Proc.devRef .tc main_v27) = val_main_v34 (a1 m c) := by
  show StableHlo.after hostOps2 (W4 m ρ c) (Proc.devRef .tc main_v27) = _
  after_results
  rw [(to4 m ρ c main_v10 (.inr (.inr (.inl rfl)))).trans (w1_v10 m ρ c)]
  exact (rfl : _ = shapeCast S100000x1 (val_main_v10 (a1 m c)) shapeCasts_S100000_S100000x1).trans (col_eq _)

theorem w6_v28 : W6 m ρ c (Proc.devRef .tc main_v28) = val_main_v36 (a0 m c) (a1 m c) (a2 m c) (a3 m c) (a4 m c) (a5 m c) := by
  have h := (W6_arr m ρ c 3).trans (Region2.final (V5 m ρ) c)
  rw [show Region2.arrX (V5 m ρ) c = _ from w5_v26 m ρ c, show Region2.arrW (V5 m ρ) c = _ from w5_arg5 m ρ c,
    show Region2.arrN (V5 m ρ) c = _ from w5_v27 m ρ c] at h
  exact h.trans (lin2 _ _ _ _ _ _)

theorem w7_v38 : W7 m ρ c (Proc.devRef .tc main_v38) = val_main_v46 (a0 m c) (a1 m c) (a2 m c) (a3 m c) (a4 m c) (a5 m c) := by
  show StableHlo.after hostOps3 (W6 m ρ c) (Proc.devRef .tc main_v38) = _
  after_results
  rw [w6_v28, (to6 m ρ c main_v1 (.inl rfl)).trans (w1_v1 m ρ c), (to6 m ρ c main_v2 (.inr (.inl rfl))).trans (w1_v2 m ρ c)]
  rfl
theorem w7_v39 : W7 m ρ c (Proc.devRef .tc main_v39) = val_main_v47 (a2 m c) := by
  show StableHlo.after hostOps3 (W6 m ρ c) (Proc.devRef .tc main_v39) = _
  after_results
  rw [(to6 m ρ c main_v11 (.inr (.inr (.inl rfl)))).trans (w1_v11 m ρ c)]
  exact (rfl : _ = shapeCast S100000x1 (val_main_v11 (a2 m c)) shapeCasts_S100000_S100000x1).trans (col_eq _)
theorem w7_v40 : W7 m ρ c (Proc.devRef .tc main_v40) = val_main_v50 (a6 m c) := by
  show StableHlo.after hostOps3 (W6 m ρ c) (Proc.devRef .tc main_v40) = _
  after_results
  rw [(to6 m ρ c main_arg6 (.inr (.inr (.inr rfl)))).trans (w1_arg6 m ρ c)]
  exact (rfl : _ = shapeCast S1x64 (a6 m c) shapeCasts_S64_S1x64).trans (row_eq _)

/-- The result array after the last region is the reference's last stage of the launched arguments. -/
theorem w8_v41 : W8 m ρ c (Proc.devRef .tc main_v41)
    = val_main_v52 (a0 m c) (a1 m c) (a2 m c) (a3 m c) (a4 m c) (a5 m c) (a6 m c) := by
  have h := (W8_arr m ρ c 3).trans (Region3.final (V7 m ρ) c)
  rw [show Region3.arrG (V7 m ρ) c = _ from w7_v38 m ρ c, show Region3.arrN (V7 m ρ) c = _ from w7_v39 m ρ c,
    show Region3.arrB (V7 m ρ) c = _ from w7_v40 m ρ c] at h
  exact h.trans (lin3 _ _ _ _ _ _ _)

end Cert.KernelIdeal.Chain

end
-- ==== Proof.Pair.lean ====
/-
  Both idealized programs end with the same result array. The reference's run ends at its last stage of its
  arguments; the kernel program's run ends, region by region and host stretch by host stretch, at that same stage
  of its own arguments; and the two memories agree on the arguments.
-/
import proofs.«103828_j24773371363585_1_alg».proof.Defs
import proofs.«103828_j24773371363585_1_alg».proof.Proof.Gen.KernelIdeal
import proofs.«103828_j24773371363585_1_alg».proof.Proof.Gen.ReferenceIdeal
import proofs.«103828_j24773371363585_1_alg».proof.Proof.Gen.Pre_finite_inputs
import proofs.«103828_j24773371363585_1_alg».proof.Proof.Gen.ReferenceIdeal.Run
import proofs.«103828_j24773371363585_1_alg».proof.Proof.Gen.ReferenceIdeal.Read
import proofs.«103828_j24773371363585_1_alg».proof.Proof.KernelOut
import proofs.«103828_j24773371363585_1_alg».proof.Proof.Chain

noncomputable section

namespace Cert.Proof.Pair

open Idealize.ShloMosaic Idealize.ShloMosaic.TcCoe Idealize.SL.Sem

/-- The kernel program and the reference compute one function of the arguments: two graph-convolution layers, each
    a product with the weights scaled by the source-degree factor, gathered along the edges, summed into the
    destinations, scaled by the destination-degree factor and shifted by the bias (the first layer clipped below at
    zero). The kernel program tiles the two dense steps of each layer over twenty row blocks; on extended reals the
    tiling and the change of float format before the products change no entry. -/
theorem algebraic : Cert.algebraic_KernelIdeal_ReferenceIdeal := by
  intro m ρ m' ρ' _ hagree
  refine ⟨fun c => Cert.ReferenceIdeal.Read.val_main_v52 (F := Ideal) (Cert.KernelIdeal.Chain.a0 m c) (Cert.KernelIdeal.Chain.a1 m c)
    (Cert.KernelIdeal.Chain.a2 m c) (Cert.KernelIdeal.Chain.a3 m c) (Cert.KernelIdeal.Chain.a4 m c) (Cert.KernelIdeal.Chain.a5 m c)
    (Cert.KernelIdeal.Chain.a6 m c), ?_, ?_⟩
  · exact (θ_run Cert.KernelIdeal.defs _ _).mono (fun _ h c => ⟨(h c).1.trans (Cert.KernelIdeal.Chain.w8_v41 m ρ c), (h c).2⟩)
      (Cert.KernelIdeal.Out.run_out (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v52_eq, (hagree c).1, (hagree c).2.1, (hagree c).2.2.1, (hagree c).2.2.2.1,
      (hagree c).2.2.2.2.1, (hagree c).2.2.2.2.2.1, (hagree c).2.2.2.2.2.2]

end Cert.Proof.Pair

end
-- ==== Proof.lean ====
/-
  The certificate of the two-layer graph convolution: the kernel program (four row-tiled regions among the host's
  gathers and scatter-adds) against its reference, over the extended reals.

  The three frames: the two kernel programs' by their generated frame certificates, the reference's by its generated
  run with the result dropped. The idealization rewrote no operation, so nothing is owed for it. The value claim:
  Proof/Pair.lean, over Proof/KernelOut.lean (the kernel program's run with its result buffer read), Proof/Region0.lean
  to Proof/Region3.lean (each region's output array as one function of its input arrays, index by index) and
  Proof/Chain.lean (the buffers read boundary by boundary, each region's function identified with the reference's stage).
-/
import proofs.«103828_j24773371363585_1_alg».proof.Defs
import proofs.«103828_j24773371363585_1_alg».proof.Proof.Gen.Kernel
import proofs.«103828_j24773371363585_1_alg».proof.Proof.Gen.Kernel.Skeleton
import proofs.«103828_j24773371363585_1_alg».proof.Proof.Gen.Kernel.Launch
import proofs.«103828_j24773371363585_1_alg».proof.Proof.Gen.Kernel.Points
import proofs.«103828_j24773371363585_1_alg».proof.Proof.Gen.Kernel.Frame
import proofs.«103828_j24773371363585_1_alg».proof.Proof.Gen.KernelIdeal
import proofs.«103828_j24773371363585_1_alg».proof.Proof.Gen.KernelIdeal.Skeleton
import proofs.«103828_j24773371363585_1_alg».proof.Proof.Gen.KernelIdeal.Launch
import proofs.«103828_j24773371363585_1_alg».proof.Proof.Gen.KernelIdeal.Points
import proofs.«103828_j24773371363585_1_alg».proof.Proof.Gen.KernelIdeal.Frame
import proofs.«103828_j24773371363585_1_alg».proof.Proof.Gen.ReferenceIdeal
import proofs.«103828_j24773371363585_1_alg».proof.Proof.Gen.Pre_finite_inputs
import proofs.«103828_j24773371363585_1_alg».proof.Proof.Gen.ReferenceIdeal.Run
import proofs.«103828_j24773371363585_1_alg».proof.Proof.Gen.ReferenceIdeal.Read
import proofs.«103828_j24773371363585_1_alg».proof.Proof.Pair
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  Cert.Proof.Pair.algebraic⟩

end Cert.Proof

end
